-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_v12) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x5x6x20 : Shape := ⟨4, ![10000, 5, 6, 20]⟩
abbrev S5 : Shape := ⟨1, ![5]⟩
abbrev S5x6 : Shape := ⟨2, ![5, 6]⟩
abbrev S5x6x20x20 : Shape := ⟨4, ![5, 6, 20, 20]⟩
abbrev S_ : Shape := ⟨0, ![]⟩

class Facts : Prop where
  bcast_S_S10000x5x6x20 : S_.BroadcastsInDim S10000x5x6x20 (![] : Fin 0 → Fin S10000x5x6x20.rank)
  reducesTo_S10000x5x6x20_S_d0_1_2_3 : S10000x5x6x20.ReducesTo [0, 1, 2, 3] S_
  h_S_ : 0 < S_.numel
  bcast_S_S5 : S_.BroadcastsInDim S5 (![] : Fin 0 → Fin S5.rank)
  reducesTo_S5_S_d0 : S5.ReducesTo [0] S_
  bcast_S_S5x6 : S_.BroadcastsInDim S5x6 (![] : Fin 0 → Fin S5x6.rank)
  reducesTo_S5x6_S_d0_1 : S5x6.ReducesTo [0, 1] S_
  bcast_S_S5x6x20x20 : S_.BroadcastsInDim S5x6x20x20 (![] : Fin 0 → Fin S5x6x20x20.rank)
  reducesTo_S5x6x20x20_S_d0_1_2_3 : S5x6x20x20.ReducesTo [0, 1, 2, 3] S_

variable [Facts]

def fn_part1 {F : FTy → Type} [FloatOps F] (main_v13 : IVec S_ 1) (main_v16 : IVec S5x6x20x20 1) : IVec S_ 1 :=
  let main_c_5 : IVec S_ 1 := constantI S_ 1 1#1
  let main_v17 : IVec S_ 1 := (fun x v => Host.reduce IntOp.andi x v reducesTo_S5x6x20x20_S_d0_1_2_3 h_S_) main_v16 main_c_5
  let main_v18 : IVec S_ 1 := andi main_v13 main_v17
  main_v18

def fn {F : FTy → Type} [FloatOps F] (main_arg0 : FVec F S10000x5x6x20 .f32) (main_arg1 : FVec F S5 .f32) (main_arg2 : FVec F S5x6 .f32) (main_arg3 : FVec F S5x6x20x20 .f32) : IVec S_ 1 :=
  let main_v0 : FVec F S10000x5x6x20 .f32 := Host.absf main_arg0
  let main_cst : FVec F S_ .f32 := constant S_ .f32 0x7F800000#32
  let main_v1 : FVec F S10000x5x6x20 .f32 := broadcastInDim S10000x5x6x20 ![] bcast_S_S10000x5x6x20 main_cst
  let main_v2 : IVec S10000x5x6x20 1 := cmpf .olt main_v0 main_v1
  let main_c : IVec S_ 1 := constantI S_ 1 1#1
  let main_v3 : IVec S_ 1 := (fun x v => Host.reduce IntOp.andi x v reducesTo_S10000x5x6x20_S_d0_1_2_3 h_S_) main_v2 main_c
  let main_v4 : FVec F S5 .f32 := Host.absf main_arg1
  let main_cst_0 : FVec F S_ .f32 := constant S_ .f32 0x7F800000#32
  let main_v5 : FVec F S5 .f32 := broadcastInDim S5 ![] bcast_S_S5 main_cst_0
  let main_v6 : IVec S5 1 := cmpf .olt main_v4 main_v5
  let main_c_1 : IVec S_ 1 := constantI S_ 1 1#1
  let main_v7 : IVec S_ 1 := (fun x v => Host.reduce IntOp.andi x v reducesTo_S5_S_d0 h_S_) main_v6 main_c_1
  let main_v8 : IVec S_ 1 := andi main_v3 main_v7
  let main_v9 : FVec F S5x6 .f32 := Host.absf main_arg2
  let main_cst_2 : FVec F S_ .f32 := constant S_ .f32 0x7F800000#32
  let main_v10 : FVec F S5x6 .f32 := broadcastInDim S5x6 ![] bcast_S_S5x6 main_cst_2
  let main_v11 : IVec S5x6 1 := cmpf .olt main_v9 main_v10
  let main_c_3 : IVec S_ 1 := constantI S_ 1 1#1
  let main_v12 : IVec S_ 1 := (fun x v => Host.reduce IntOp.andi x v reducesTo_S5x6_S_d0_1 h_S_) main_v11 main_c_3
  let main_v13 : IVec S_ 1 := andi main_v8 main_v12
  let main_v14 : FVec F S5x6x20x20 .f32 := Host.absf main_arg3
  let main_cst_4 : FVec F S_ .f32 := constant S_ .f32 0x7F800000#32
  let main_v15 : FVec F S5x6x20x20 .f32 := broadcastInDim S5x6x20x20 ![] bcast_S_S5x6x20x20 main_cst_4
  let main_v16 : IVec S5x6x20x20 1 := cmpf .olt main_v14 main_v15
  fn_part1 (F := F) main_v13 main_v16
-- ==== Kernel.lean ====
abbrev S10000x5x6x20 : Shape := ⟨4, ![10000, 5, 6, 20]⟩
abbrev S5 : Shape := ⟨1, ![5]⟩
abbrev S5x6 : Shape := ⟨2, ![5, 6]⟩
abbrev S5x6x20x20 : Shape := ⟨4, ![5, 6, 20, 20]⟩
abbrev S10000x20 : Shape := ⟨2, ![10000, 20]⟩
abbrev S10000x5x6x20x20 : Shape := ⟨5, ![10000, 5, 6, 20, 20]⟩
abbrev S16x5x6x20 : Shape := ⟨4, ![16, 5, 6, 20]⟩
abbrev S16x20 : Shape := ⟨2, ![16, 20]⟩
abbrev S16x5x6x20x20 : Shape := ⟨5, ![16, 5, 6, 20, 20]⟩
abbrev S16x5x6 : Shape := ⟨3, ![16, 5, 6]⟩
abbrev S16x5x6x1 : Shape := ⟨4, ![16, 5, 6, 1]⟩
abbrev S16x5x6x1x1 : Shape := ⟨5, ![16, 5, 6, 1, 1]⟩
abbrev S1x5x6x20x20 : Shape := ⟨5, ![1, 5, 6, 20, 20]⟩
abbrev S16x5x6x1x20 : Shape := ⟨5, ![16, 5, 6, 1, 20]⟩
abbrev S1x5x6x1 : Shape := ⟨4, ![1, 5, 6, 1]⟩
abbrev S16x5x20 : Shape := ⟨3, ![16, 5, 20]⟩
abbrev S1x5x1 : Shape := ⟨3, ![1, 5, 1]⟩
abbrev S1x5x1x1x1 : Shape := ⟨5, ![1, 5, 1, 1, 1]⟩
abbrev S1x5x6x1x1 : Shape := ⟨5, ![1, 5, 6, 1, 1]⟩

abbrev nBuf : Space → Nat
  | .hbm => 7
  | .vmem => 11
  | .smem => 0
  | _ => 0

abbrev bufTy : (tb : Table) → Fin (tcTables nBuf tb) → BufTy
  | .hbm, ⟨0, _⟩ => ⟨S10000x5x6x20, .f32⟩
  | .hbm, ⟨1, _⟩ => ⟨S5, .f32⟩
  | .hbm, ⟨2, _⟩ => ⟨S5x6, .f32⟩
  | .hbm, ⟨3, _⟩ => ⟨S5x6x20x20, .f32⟩
  | .hbm, ⟨4, _⟩ => ⟨S10000x20, .f32⟩
  | .hbm, ⟨5, _⟩ => ⟨S10000x5x6x20x20, .f32⟩
  | .hbm, ⟨6, _⟩ => ⟨S10000x5x6x20x20, .f32⟩
  | .local _ .vmem, ⟨0, _⟩ => ⟨S16x5x6x20, .f32⟩
  | .local _ .vmem, ⟨1, _⟩ => ⟨S16x5x6x20, .f32⟩
  | .local _ .vmem, ⟨2, _⟩ => ⟨S5, .f32⟩
  | .local _ .vmem, ⟨3, _⟩ => ⟨S5x6, .f32⟩
  | .local _ .vmem, ⟨4, _⟩ => ⟨S5x6x20x20, .f32⟩
  | .local _ .vmem, ⟨5, _⟩ => ⟨S16x20, .f32⟩
  | .local _ .vmem, ⟨6, _⟩ => ⟨S16x20, .f32⟩
  | .local _ .vmem, ⟨7, _⟩ => ⟨S16x5x6x20x20, .f32⟩
  | .local _ .vmem, ⟨8, _⟩ => ⟨S16x5x6x20x20, .f32⟩
  | .local _ .vmem, ⟨9, _⟩ => ⟨S16x5x6x20x20, .f32⟩
  | .local _ .vmem, ⟨10, _⟩ => ⟨S16x5x6x20x20, .f32⟩
  | _, _ => ⟨S10000x5x6x20, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![625], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_6 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S16x5x6x20 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5x6 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5x6x20x20 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x20 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x5x6x20x20 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x5x6x20x20 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  inb_S16x5x6x20_S16x5x6x20_0_0_0_0 : ∀ a, (![0, 0, 0, 0] : Fin 4 → Nat) a + S16x5x6x20.size a ≤ S16x5x6x20.size a
  h_S16x5x6x20 : 0 < S16x5x6x20.numel
  inb_S5x6x20x20_S5x6x20x20_0_0_0_0 : ∀ a, (![0, 0, 0, 0] : Fin 4 → Nat) a + S5x6x20x20.size a ≤ S5x6x20x20.size a
  h_S5x6x20x20 : 0 < S5x6x20x20.numel
  inb_S5_S5_0 : ∀ a, (![0] : Fin 1 → Nat) a + S5.size a ≤ S5.size a
  h_S5 : 0 < S5.numel
  inb_S5x6_S5x6_0_0 : ∀ a, (![0, 0] : Fin 2 → Nat) a + S5x6.size a ≤ S5x6.size a
  h_S5x6 : 0 < S5x6.numel
  reduces_S16x5x6x20_S16x5x6 : S16x5x6x20.Reduces [3] S16x5x6
  shapeCasts_S16x5x6_S16x5x6x1 : S16x5x6.ShapeCasts S16x5x6x1
  shapeCasts_S16x5x6x1_S16x5x6x1x1 : S16x5x6x1.ShapeCasts S16x5x6x1x1
  shapeCasts_S5x6x20x20_S1x5x6x20x20 : S5x6x20x20.ShapeCasts S1x5x6x20x20
  shapeCasts_S16x5x6x20_S16x5x6x1x20 : S16x5x6x20.ShapeCasts S16x5x6x1x20
  broadcasts_S1x5x6x20x20_S16x5x6x20x20 : S1x5x6x20x20.Broadcasts S16x5x6x20x20
  broadcasts_S16x5x6x1x20_S16x5x6x20x20 : S16x5x6x1x20.Broadcasts S16x5x6x20x20
  broadcasts_S16x5x6x1x1_S16x5x6x20x20 : S16x5x6x1x1.Broadcasts S16x5x6x20x20
  inb_S16x5x6x20x20_S16x5x6x20x20_0_0_0_0_0 : ∀ a, (![0, 0, 0, 0, 0] : Fin 5 → Nat) a + S16x5x6x20x20.size a ≤ S16x5x6x20x20.size a
  h_S16x5x6x20x20 : 0 < S16x5x6x20x20.numel
  reduces_S16x5x6x20x20_S16x5x6x20 : S16x5x6x20x20.Reduces [4] S16x5x6x20
  shapeCasts_S5x6_S1x5x6x1 : S5x6.ShapeCasts S1x5x6x1
  broadcasts_S1x5x6x1_S16x5x6x20 : S1x5x6x1.Broadcasts S16x5x6x20
  reduces_S16x5x6x20_S16x5x20 : S16x5x6x20.Reduces [2] S16x5x20
  shapeCasts_S5_S1x5x1 : S5.ShapeCasts S1x5x1
  broadcasts_S1x5x1_S16x5x20 : S1x5x1.Broadcasts S16x5x20
  reduces_S16x5x20_S16x20 : S16x5x20.Reduces [1] S16x20
  inb_S16x20_S16x20_0_0 : ∀ a, (![0, 0] : Fin 2 → Nat) a + S16x20.size a ≤ S16x20.size a
  h_S16x20 : 0 < S16x20.numel
  shapeCasts_S5_S1x5x1x1x1 : S5.ShapeCasts S1x5x1x1x1
  shapeCasts_S5x6_S1x5x6x1x1 : S5x6.ShapeCasts S1x5x6x1x1
  broadcasts_S1x5x1x1x1_S1x5x6x1x1 : S1x5x1x1x1.Broadcasts S1x5x6x1x1
  broadcasts_S1x5x6x1x1_S16x5x6x20x20 : S1x5x6x1x1.Broadcasts S16x5x6x20x20
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x5x6x20.size a ≤ S10000x5x6x20.size a
  hwx0_0 : ∀ i : grid0.Coords, EltTy.bits .f32 = 32 ∨ (Rect.block (s := S10000x5x6x20) S16x5x6x20.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5.size a ≤ S5.size a
  hwx0_1 : ∀ i : grid0.Coords, EltTy.bits .f32 = 32 ∨ (Rect.block (s := S5) S5.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S5x6.size a ≤ S5x6.size a
  hwx0_2 : ∀ i : grid0.Coords, EltTy.bits .f32 = 32 ∨ (Rect.block (s := S5x6) S5x6.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S5x6x20x20.size a ≤ S5x6x20x20.size a
  hwx0_3 : ∀ i : grid0.Coords, EltTy.bits .f32 = 32 ∨ (Rect.block (s := S5x6x20x20) S5x6x20x20.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x20.size a ≤ S10000x20.size a
  hwx0_4 : ∀ i : grid0.Coords, EltTy.bits .f32 = 32 ∨ (Rect.block (s := S10000x20) S16x20.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x5x6x20x20.size a ≤ S10000x5x6x20x20.size a
  hwx0_5 : ∀ i : grid0.Coords, EltTy.bits .f32 = 32 ∨ (Rect.block (s := S10000x5x6x20x20) S16x5x6x20x20.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S16x5x6x20x20.size a ≤ S10000x5x6x20x20.size a
  hwx0_6 : ∀ i : grid0.Coords, EltTy.bits .f32 = 32 ∨ (Rect.block (s := S10000x5x6x20x20) S16x5x6x20x20.size (cc0_transform_6 i) (hinb0_6 i)).WholeWords (EltTy.packing .f32)

variable [Facts₀]

abbrev win0_0 : Pipeline.Window sig grid0 :=
  Pipeline.Window.ofSpec (Memref.whole main_arg0) S16x5x6x20.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S5x6.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S5x6x20x20.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S16x20.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S16x5x6x20x20.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_2) S16x5x6x20x20.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S10000x5x6x20 : Shape := ⟨4, ![10000, 5, 6, 20]⟩
abbrev S5 : Shape := ⟨1, ![5]⟩
abbrev S5x6 : Shape := ⟨2, ![5, 6]⟩
abbrev S5x6x20x20 : Shape := ⟨4, ![5, 6, 20, 20]⟩
abbrev S_ : Shape := ⟨0, ![]⟩
abbrev S10000x5x6 : Shape := ⟨3, ![10000, 5, 6]⟩
abbrev S10000x5x6x1 : Shape := ⟨4, ![10000, 5, 6, 1]⟩
abbrev S10000x5x6x1x1 : Shape := ⟨5, ![10000, 5, 6, 1, 1]⟩
abbrev S1x5x6x20x20 : Shape := ⟨5, ![1, 5, 6, 20, 20]⟩
abbrev S10000x5x6x1x20 : Shape := ⟨5, ![10000, 5, 6, 1, 20]⟩
abbrev S10000x5x6x20x20 : Shape := ⟨5, ![10000, 5, 6, 20, 20]⟩
abbrev S1x5x6x1 : Shape := ⟨4, ![1, 5, 6, 1]⟩
abbrev S10000x5x20 : Shape := ⟨3, ![10000, 5, 20]⟩
abbrev S1x5x1 : Shape := ⟨3, ![1, 5, 1]⟩
abbrev S10000x20 : Shape := ⟨2, ![10000, 20]⟩
abbrev S1x5x1x1x1 : Shape := ⟨5, ![1, 5, 1, 1, 1]⟩
abbrev S1x5x6x1x1 : Shape := ⟨5, ![1, 5, 6, 1, 1]⟩

abbrev nBuf : Space → Nat
  | .hbm => 39
  | .vmem => 0
  | .smem => 0
  | _ => 0

abbrev bufTy : (tb : Table) → Fin (tcTables nBuf tb) → BufTy
  | .hbm, ⟨0, _⟩ => ⟨S10000x5x6x20, .f32⟩
  | .hbm, ⟨1, _⟩ => ⟨S5, .f32⟩
  | .hbm, ⟨2, _⟩ => ⟨S5x6, .f32⟩
  | .hbm, ⟨3, _⟩ => ⟨S5x6x20x20, .f32⟩
  | .hbm, ⟨4, _⟩ => ⟨S_, .f32⟩
  | .hbm, ⟨5, _⟩ => ⟨S10000x5x6, .f32⟩
  | .hbm, ⟨6, _⟩ => ⟨S10000x5x6x1, .f32⟩
  | .hbm, ⟨7, _⟩ => ⟨S10000x5x6x1x1, .f32⟩
  | .hbm, ⟨8, _⟩ => ⟨S_, .f32⟩
  | .hbm, ⟨9, _⟩ => ⟨S10000x5x6x1x1, .f32⟩
  | .hbm, ⟨10, _⟩ => ⟨S10000x5x6x1x1, .i1⟩
  | .hbm, ⟨11, _⟩ => ⟨S_, .f32⟩
  | .hbm, ⟨12, _⟩ => ⟨S10000x5x6x1x1, .f32⟩
  | .hbm, ⟨13, _⟩ => ⟨S10000x5x6x1x1, .f32⟩
  | .hbm, ⟨14, _⟩ => ⟨S1x5x6x20x20, .f32⟩
  | .hbm, ⟨15, _⟩ => ⟨S10000x5x6x1x20, .f32⟩
  | .hbm, ⟨16, _⟩ => ⟨S10000x5x6x20x20, .f32⟩
  | .hbm, ⟨17, _⟩ => ⟨S10000x5x6x20x20, .f32⟩
  | .hbm, ⟨18, _⟩ => ⟨S10000x5x6x20x20, .f32⟩
  | .hbm, ⟨19, _⟩ => ⟨S10000x5x6x20x20, .f32⟩
  | .hbm, ⟨20, _⟩ => ⟨S10000x5x6x20x20, .f32⟩
  | .hbm, ⟨21, _⟩ => ⟨S1x5x6x1, .f32⟩
  | .hbm, ⟨22, _⟩ => ⟨S_, .f32⟩
  | .hbm, ⟨23, _⟩ => ⟨S10000x5x6x20, .f32⟩
  | .hbm, ⟨24, _⟩ => ⟨S10000x5x6x20, .f32⟩
  | .hbm, ⟨25, _⟩ => ⟨S10000x5x6x20, .f32⟩
  | .hbm, ⟨26, _⟩ => ⟨S_, .f32⟩
  | .hbm, ⟨27, _⟩ => ⟨S10000x5x20, .f32⟩
  | .hbm, ⟨28, _⟩ => ⟨S1x5x1, .f32⟩
  | .hbm, ⟨29, _⟩ => ⟨S10000x5x20, .f32⟩
  | .hbm, ⟨30, _⟩ => ⟨S10000x5x20, .f32⟩
  | .hbm, ⟨31, _⟩ => ⟨S_, .f32⟩
  | .hbm, ⟨32, _⟩ => ⟨S10000x20, .f32⟩
  | .hbm, ⟨33, _⟩ => ⟨S1x5x1x1x1, .f32⟩
  | .hbm, ⟨34, _⟩ => ⟨S1x5x6x1x1, .f32⟩
  | .hbm, ⟨35, _⟩ => ⟨S1x5x6x1x1, .f32⟩
  | .hbm, ⟨36, _⟩ => ⟨S1x5x6x1x1, .f32⟩
  | .hbm, ⟨37, _⟩ => ⟨S10000x5x6x20x20, .f32⟩
  | .hbm, ⟨38, _⟩ => ⟨S10000x5x6x20x20, .f32⟩
  | _, _ => ⟨S10000x5x6x20, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]

class Facts₀ : Prop where
  reducesTo_S10000x5x6x20_S10000x5x6_d3 : S10000x5x6x20.ReducesTo [3] S10000x5x6
  h_S_ : 0 < S_.numel
  bcast_S10000x5x6_S10000x5x6x1_0_1_2 : S10000x5x6.BroadcastsInDim S10000x5x6x1 (![0, 1, 2] : Fin 3 → Fin S10000x5x6x1.rank)
  bcast_S10000x5x6x1_S10000x5x6x1x1_0_1_2_3 : S10000x5x6x1.BroadcastsInDim S10000x5x6x1x1 (![0, 1, 2, 3] : Fin 4 → Fin S10000x5x6x1x1.rank)
  bcast_S_S10000x5x6x1x1 : S_.BroadcastsInDim S10000x5x6x1x1 (![] : Fin 0 → Fin S10000x5x6x1x1.rank)
  bcast_S5x6x20x20_S1x5x6x20x20_1_2_3_4 : S5x6x20x20.BroadcastsInDim S1x5x6x20x20 (![1, 2, 3, 4] : Fin 4 → Fin S1x5x6x20x20.rank)
  bcast_S10000x5x6x20_S10000x5x6x1x20_0_1_2_4 : S10000x5x6x20.BroadcastsInDim S10000x5x6x1x20 (![0, 1, 2, 4] : Fin 4 → Fin S10000x5x6x1x20.rank)
  bcast_S1x5x6x20x20_S10000x5x6x20x20_0_1_2_3_4 : S1x5x6x20x20.BroadcastsInDim S10000x5x6x20x20 (![0, 1, 2, 3, 4] : Fin 5 → Fin S10000x5x6x20x20.rank)
  bcast_S10000x5x6x1x20_S10000x5x6x20x20_0_1_2_3_4 : S10000x5x6x1x20.BroadcastsInDim S10000x5x6x20x20 (![0, 1, 2, 3, 4] : Fin 5 → Fin S10000x5x6x20x20.rank)
  bcast_S10000x5x6x1x1_S10000x5x6x20x20_0_1_2_3_4 : S10000x5x6x1x1.BroadcastsInDim S10000x5x6x20x20 (![0, 1, 2, 3, 4] : Fin 5 → Fin S10000x5x6x20x20.rank)
  bcast_S5x6_S1x5x6x1_1_2 : S5x6.BroadcastsInDim S1x5x6x1 (![1, 2] : Fin 2 → Fin S1x5x6x1.rank)
  reducesTo_S10000x5x6x20x20_S10000x5x6x20_d4 : S10000x5x6x20x20.ReducesTo [4] S10000x5x6x20
  bcast_S1x5x6x1_S10000x5x6x20_0_1_2_3 : S1x5x6x1.BroadcastsInDim S10000x5x6x20 (![0, 1, 2, 3] : Fin 4 → Fin S10000x5x6x20.rank)
  reducesTo_S10000x5x6x20_S10000x5x20_d2 : S10000x5x6x20.ReducesTo [2] S10000x5x20
  bcast_S5_S1x5x1_1 : S5.BroadcastsInDim S1x5x1 (![1] : Fin 1 → Fin S1x5x1.rank)
  bcast_S1x5x1_S10000x5x20_0_1_2 : S1x5x1.BroadcastsInDim S10000x5x20 (![0, 1, 2] : Fin 3 → Fin S10000x5x20.rank)
  reducesTo_S10000x5x20_S10000x20_d1 : S10000x5x20.ReducesTo [1] S10000x20
  bcast_S5_S1x5x1x1x1_1 : S5.BroadcastsInDim S1x5x1x1x1 (![1] : Fin 1 → Fin S1x5x1x1x1.rank)
  bcast_S5x6_S1x5x6x1x1_1_2 : S5x6.BroadcastsInDim S1x5x6x1x1 (![1, 2] : Fin 2 → Fin S1x5x6x1x1.rank)
  bcast_S1x5x1x1x1_S1x5x6x1x1_0_1_2_3_4 : S1x5x1x1x1.BroadcastsInDim S1x5x6x1x1 (![0, 1, 2, 3, 4] : Fin 5 → Fin S1x5x6x1x1.rank)
  bcast_S1x5x6x1x1_S10000x5x6x20x20_0_1_2_3_4 : S1x5x6x1x1.BroadcastsInDim S10000x5x6x20x20 (![0, 1, 2, 3, 4] : Fin 5 → Fin S10000x5x6x20x20.rank)

variable [Facts₀]

class Facts : Prop extends Facts₀ where

variable [Facts]
-- ==== Proof.Posterior.lean ====
/-
  The quantities both programs compute, as functions of the four argument arrays over the extended reals.

  A node `n` carries, per layer `l` and arc `a`, a vector of statistics over the 20 neighbour states. Its mass is the
  sum of that vector; a vanishing mass is replaced by one, so that the division below is by the mass wherever the
  mass is not zero and by one where it is. The term of `(n, l, a)` at the state pair `(c, k)` is the transition weight
  times the statistic, divided by that denominator. The posterior of the pair weighs the term by the layer's and the
  arc's weights (their product taken first); the state posterior of node `n` at state `c` sums the terms over the
  neighbour state, then over the arcs under the arc weights, then over the layers under the layer weights.

  Everything about node `n` reads the statistics of node `n` alone. So the same definitions serve a block of 16
  nodes and the whole array of 10000, and a block of nodes that is a run of rows of the array computes those rows
  of the array's result (`term_rows`, `post_rows`, `statePosterior_rows`).
-/
import Idealize.ShloMosaic.PureOps.Ideal
import Idealize.ShloMosaic.Lib.ValueIdx

noncomputable section

namespace Cert.Posterior

open Idealize.ShloMosaic Idealize.ShloMosaic.ValueIdx

/-- The float word of zero and of one, as the extended reals they denote. Both programs print the same two words,
    so neither is ever evaluated. -/
abbrev zeroWord : EReal := FloatOps.ofBits (F := Ideal) .f32 0x00000000#32
abbrev oneWord : EReal := FloatOps.ofBits (F := Ideal) .f32 0x3F800000#32

/-- A mass that compares equal to zero is replaced by one; any other mass is kept. -/
def orOne (x : EReal) : EReal :=
  Scalar.select (FloatOps.cmpf (F := Ideal) (φ := .f32) .oeq x zeroWord) oneWord x

variable {R : Nat}

/-- The mass of node `n` on layer `l` and arc `a`: its statistics summed over the 20 neighbour states. -/
def mass (s : (⟨4, ![R, 5, 6, 20]⟩ : Shape).Idx → EReal) (n : Fin R) (l : Fin 5) (a : Fin 6) : EReal :=
  ∑ k : Fin 20, s (ix4 n l a k)

/-- The term of `(n, l, a)` at the state pair `(c, k)`: transition weight times statistic, over the guarded mass. -/
def term (s : (⟨4, ![R, 5, 6, 20]⟩ : Shape).Idx → EReal) (t : (⟨4, ![5, 6, 20, 20]⟩ : Shape).Idx → EReal)
    (n : Fin R) (l : Fin 5) (a : Fin 6) (c k : Fin 20) : EReal :=
  Ideal.div (t (ix4 l a c k) * s (ix4 n l a k)) (orOne (mass s n l a))

/-- The posterior of the state pair: the term under the product of the layer's and the arc's weight. -/
def post (s : (⟨4, ![R, 5, 6, 20]⟩ : Shape).Idx → EReal) (w : (⟨1, ![5]⟩ : Shape).Idx → EReal)
    (u : (⟨2, ![5, 6]⟩ : Shape).Idx → EReal) (t : (⟨4, ![5, 6, 20, 20]⟩ : Shape).Idx → EReal)
    (n : Fin R) (l : Fin 5) (a : Fin 6) (c k : Fin 20) : EReal :=
  (w (ix1 l) * u (ix2 l a)) * term s t n l a c k

/-- The state posterior of node `n` at state `c`: the terms summed over the neighbour state, the arcs (weighted) and
    the layers (weighted), innermost first. -/
def statePosterior (s : (⟨4, ![R, 5, 6, 20]⟩ : Shape).Idx → EReal) (w : (⟨1, ![5]⟩ : Shape).Idx → EReal)
    (u : (⟨2, ![5, 6]⟩ : Shape).Idx → EReal) (t : (⟨4, ![5, 6, 20, 20]⟩ : Shape).Idx → EReal)
    (n : Fin R) (c : Fin 20) : EReal :=
  ∑ l : Fin 5, w (ix1 l) * ∑ a : Fin 6, u (ix2 l a) * ∑ k : Fin 20, term s t n l a c k

/-! ## The three result arrays -/

/-- The array of terms. -/
def termArray (s : (⟨4, ![R, 5, 6, 20]⟩ : Shape).Idx → EReal) (t : (⟨4, ![5, 6, 20, 20]⟩ : Shape).Idx → EReal) :
    (⟨5, ![R, 5, 6, 20, 20]⟩ : Shape).Idx → EReal :=
  fun i => term s t (i 0) (i 1) (i 2) (i 3) (i 4)

/-- The array of pair posteriors. -/
def postArray (s : (⟨4, ![R, 5, 6, 20]⟩ : Shape).Idx → EReal) (w : (⟨1, ![5]⟩ : Shape).Idx → EReal)
    (u : (⟨2, ![5, 6]⟩ : Shape).Idx → EReal) (t : (⟨4, ![5, 6, 20, 20]⟩ : Shape).Idx → EReal) :
    (⟨5, ![R, 5, 6, 20, 20]⟩ : Shape).Idx → EReal :=
  fun i => post s w u t (i 0) (i 1) (i 2) (i 3) (i 4)

/-- The array of state posteriors. -/
def stateArray (s : (⟨4, ![R, 5, 6, 20]⟩ : Shape).Idx → EReal) (w : (⟨1, ![5]⟩ : Shape).Idx → EReal)
    (u : (⟨2, ![5, 6]⟩ : Shape).Idx → EReal) (t : (⟨4, ![5, 6, 20, 20]⟩ : Shape).Idx → EReal) :
    (⟨2, ![R, 20]⟩ : Shape).Idx → EReal :=
  fun i => statePosterior s w u t (i 0) (i 1)

/-! ## A node's results read that node's statistics alone -/

variable {R' : Nat}

theorem mass_rows (s : (⟨4, ![R, 5, 6, 20]⟩ : Shape).Idx → EReal) (s' : (⟨4, ![R', 5, 6, 20]⟩ : Shape).Idx → EReal)
    (n : Fin R) (n' : Fin R') (h : ∀ l a k, s' (ix4 n' l a k) = s (ix4 n l a k)) (l : Fin 5) (a : Fin 6) :
    mass s' n' l a = mass s n l a :=
  Finset.sum_congr rfl fun k _ => h l a k

theorem term_rows (s : (⟨4, ![R, 5, 6, 20]⟩ : Shape).Idx → EReal) (s' : (⟨4, ![R', 5, 6, 20]⟩ : Shape).Idx → EReal)
    (t : (⟨4, ![5, 6, 20, 20]⟩ : Shape).Idx → EReal)
    (n : Fin R) (n' : Fin R') (h : ∀ l a k, s' (ix4 n' l a k) = s (ix4 n l a k)) (l : Fin 5) (a : Fin 6) (c k : Fin 20) :
    term s' t n' l a c k = term s t n l a c k := by
  unfold term
  rw [mass_rows s s' n n' h l a, h l a k]

theorem post_rows (s : (⟨4, ![R, 5, 6, 20]⟩ : Shape).Idx → EReal) (s' : (⟨4, ![R', 5, 6, 20]⟩ : Shape).Idx → EReal)
    (w : (⟨1, ![5]⟩ : Shape).Idx → EReal) (u : (⟨2, ![5, 6]⟩ : Shape).Idx → EReal)
    (t : (⟨4, ![5, 6, 20, 20]⟩ : Shape).Idx → EReal)
    (n : Fin R) (n' : Fin R') (h : ∀ l a k, s' (ix4 n' l a k) = s (ix4 n l a k)) (l : Fin 5) (a : Fin 6) (c k : Fin 20) :
    post s' w u t n' l a c k = post s w u t n l a c k := by
  unfold post
  rw [term_rows s s' t n n' h l a c k]

theorem statePosterior_rows (s : (⟨4, ![R, 5, 6, 20]⟩ : Shape).Idx → EReal) (s' : (⟨4, ![R', 5, 6, 20]⟩ : Shape).Idx → EReal)
    (w : (⟨1, ![5]⟩ : Shape).Idx → EReal) (u : (⟨2, ![5, 6]⟩ : Shape).Idx → EReal)
    (t : (⟨4, ![5, 6, 20, 20]⟩ : Shape).Idx → EReal)
    (n : Fin R) (n' : Fin R') (h : ∀ l a k, s' (ix4 n' l a k) = s (ix4 n l a k)) (c : Fin 20) :
    statePosterior s' w u t n' c = statePosterior s w u t n c := by
  unfold statePosterior
  refine Finset.sum_congr rfl fun l _ => congrArg (w (ix1 l) * ·) ?_
  refine Finset.sum_congr rfl fun a _ => congrArg (u (ix2 l a) * ·) ?_
  exact Finset.sum_congr rfl fun k _ => term_rows s s' t n n' h l a c k

end Cert.Posterior

end
-- ==== Proof.BlockValues.lean ====
/-
  What the kernel body leaves in its three output blocks, for a block of 16 nodes, read index by index.

  The body's term block and pair-posterior block are, index by index, the term and the pair posterior of the
  block's own 16 nodes (the generated index-by-index forms `E6`, `E5` of the two blocks, with the lane sum of the
  statistics read as the node's mass). The state-posterior block is three nested lane sums — over the neighbour
  state, then the arcs, then the layers — of the term block under the broadcast arc and layer weights: the node's
  state posterior.
-/
import proofs.«157657_j89172111000085_1_alg».proof.Proof.Gen.KernelIdeal.Value
import proofs.«157657_j89172111000085_1_alg».proof.Proof.Posterior
import Idealize.ShloMosaic.PureOps.Ideal.Laws
import Idealize.ShloMosaic.Lib.ValueIdx
import Idealize.ShloMosaic.Lib.Pipeline.Value

noncomputable section

namespace Cert.KernelIdeal.Block

open Cert.KernelIdeal Cert.KernelIdeal.Gen Idealize.ShloMosaic Idealize.ShloMosaic.ValueIdx Cert.Posterior

/-- The lane sum of a block of statistics over the neighbour state, at node `n`, layer `l`, arc `a`, is that
    node's mass. -/
theorem laneSum_stats (S : Vec Ideal S16x5x6x20 .f32) (n : Fin 16) (l : Fin 5) (a : Fin 6) (j : S16x5x6.Idx)
    (hj : j = ix3 n l a) :
    multiReduction (F := Ideal) .add [3] S16x5x6 S 0x00000000#32 reduces_S16x5x6x20_S16x5x6 (.inl rfl) rfl j = mass S n l a := by
  subst hj
  refine (Ideal.multiReduction_add_single S 0x00000000#32 reduces_S16x5x6x20_S16x5x6 (.inl rfl) rfl (ix3 n l a)).trans ?_
  exact Finset.sum_congr rfl fun k _ => congrArg S (funext fun d => Fin.ext (by
    match d with | ⟨0, _⟩ => rfl | ⟨1, _⟩ => rfl | ⟨2, _⟩ => rfl | ⟨3, _⟩ => rfl))

/-- The term block at `(n, l, a, c, k)` is node `n`'s term. -/
theorem termBlock_apply (T : Vec Ideal S5x6x20x20 .f32) (S : Vec Ideal S16x5x6x20 .f32)
    (n : Fin 16) (l : Fin 5) (a : Fin 6) (c k : Fin 20) :
    Value.E6 (F := Ideal) T S (ix5 n l a c k) = term S T n l a c k := by
  have e0 : Value.ix6_0 (ix5 n l a c k) = ix4 l a c k := funext fun d => Fin.ext (by
    match d with | ⟨0, _⟩ => rfl | ⟨1, _⟩ => rfl | ⟨2, _⟩ => rfl | ⟨3, _⟩ => rfl)
  have e1 : Value.ix6_1 (ix5 n l a c k) = ix4 n l a k := funext fun d => Fin.ext (by
    match d with | ⟨0, _⟩ => rfl | ⟨1, _⟩ => rfl | ⟨2, _⟩ => rfl | ⟨3, _⟩ => rfl)
  have e2 : Value.ix6_2 (ix5 n l a c k) = ix3 n l a := funext fun d => Fin.ext (by
    match d with | ⟨0, _⟩ => rfl | ⟨1, _⟩ => rfl | ⟨2, _⟩ => rfl)
  show Ideal.div (T (Value.ix6_0 (ix5 n l a c k)) * S (Value.ix6_1 (ix5 n l a c k)))
      (Scalar.select (FloatOps.cmpf (F := Ideal) (φ := .f32) .oeq
        (multiReduction (F := Ideal) .add [3] S16x5x6 S 0x00000000#32 reduces_S16x5x6x20_S16x5x6 (.inl rfl) rfl (Value.ix6_2 (ix5 n l a c k))) zeroWord)
        oneWord
        (multiReduction (F := Ideal) .add [3] S16x5x6 S 0x00000000#32 reduces_S16x5x6x20_S16x5x6 (.inl rfl) rfl (Value.ix6_3 (ix5 n l a c k)))) = _
  rw [laneSum_stats S n l a _ e2, e0, e1]
  rfl

/-- The pair-posterior block at `(n, l, a, c, k)` is node `n`'s pair posterior. -/
theorem postBlock_apply (W : Vec Ideal S5 .f32) (U : Vec Ideal S5x6 .f32) (T : Vec Ideal S5x6x20x20 .f32)
    (S : Vec Ideal S16x5x6x20 .f32) (n : Fin 16) (l : Fin 5) (a : Fin 6) (c k : Fin 20) :
    Value.E5 (F := Ideal) W U T S (ix5 n l a c k) = post S W U T n l a c k := by
  have e0 : Value.ix5_0 (ix5 n l a c k) = ix1 l := funext fun d => Fin.ext (by
    match d with | ⟨0, _⟩ => rfl)
  have e1 : Value.ix5_1 (ix5 n l a c k) = ix2 l a := funext fun d => Fin.ext (by
    match d with | ⟨0, _⟩ => rfl | ⟨1, _⟩ => rfl)
  have e2 : Value.ix5_2 (ix5 n l a c k) = ix4 l a c k := funext fun d => Fin.ext (by
    match d with | ⟨0, _⟩ => rfl | ⟨1, _⟩ => rfl | ⟨2, _⟩ => rfl | ⟨3, _⟩ => rfl)
  have e3 : Value.ix5_3 (ix5 n l a c k) = ix4 n l a k := funext fun d => Fin.ext (by
    match d with | ⟨0, _⟩ => rfl | ⟨1, _⟩ => rfl | ⟨2, _⟩ => rfl | ⟨3, _⟩ => rfl)
  have e4 : Value.ix5_4 (ix5 n l a c k) = ix3 n l a := funext fun d => Fin.ext (by
    match d with | ⟨0, _⟩ => rfl | ⟨1, _⟩ => rfl | ⟨2, _⟩ => rfl)
  show (W (Value.ix5_0 (ix5 n l a c k)) * U (Value.ix5_1 (ix5 n l a c k))) *
      Ideal.div (T (Value.ix5_2 (ix5 n l a c k)) * S (Value.ix5_3 (ix5 n l a c k)))
      (Scalar.select (FloatOps.cmpf (F := Ideal) (φ := .f32) .oeq
        (multiReduction (F := Ideal) .add [3] S16x5x6 S 0x00000000#32 reduces_S16x5x6x20_S16x5x6 (.inl rfl) rfl (Value.ix5_4 (ix5 n l a c k))) zeroWord)
        oneWord
        (multiReduction (F := Ideal) .add [3] S16x5x6 S 0x00000000#32 reduces_S16x5x6x20_S16x5x6 (.inl rfl) rfl (Value.ix5_5 (ix5 n l a c k)))) = _
  rw [laneSum_stats S n l a _ e4, e0, e1, e2, e3]
  rfl

/-! ## The state-posterior block -/

/-- A rectangle that is the whole block sends an index to itself. -/
theorem wholeRect_idx (n : Fin 16) (l : Fin 5) (a : Fin 6) (c k : Fin 20) :
    r0_4.idx (ix5 n l a c k) = ix5 n l a c k :=
  funext fun d => Fin.ext (by
    match d with
    | ⟨0, _⟩ => show 0 + 1 * n.val = n.val; omega
    | ⟨1, _⟩ => show 0 + 1 * l.val = l.val; omega
    | ⟨2, _⟩ => show 0 + 1 * a.val = a.val; omega
    | ⟨3, _⟩ => show 0 + 1 * c.val = c.val; omega
    | ⟨4, _⟩ => show 0 + 1 * k.val = k.val; omega)

/-- The body's term value at `(n, l, a, c, k)` is node `n`'s term. -/
theorem termPayload_apply (S : Vec Ideal S16x5x6x20 .f32) (T : Vec Ideal S5x6x20x20 .f32)
    (n : Fin 16) (l : Fin 5) (a : Fin 6) (c k : Fin 20) :
    k0_pay2 (F := Ideal) S T (ix5 n l a c k) = term S T n l a c k := by
  refine (Value.piece6_0 (F := Ideal) T S (ix5 n l a c k)).trans ?_
  rw [wholeRect_idx]
  exact termBlock_apply T S n l a c k

/-- The lane sum over the neighbour state. -/
theorem sumOverNeighbour (X : FVec Ideal S16x5x6x20x20 .f32) (n : Fin 16) (l : Fin 5) (a : Fin 6) (c : Fin 20) :
    multiReduction (F := Ideal) .add [4] S16x5x6x20 X 0x00000000#32 reduces_S16x5x6x20x20_S16x5x6x20 (.inl rfl) rfl (ix4 n l a c)
      = ∑ k : Fin 20, X (ix5 n l a c k) := by
  refine (Ideal.multiReduction_add_single X 0x00000000#32 reduces_S16x5x6x20x20_S16x5x6x20 (.inl rfl) rfl (ix4 n l a c)).trans ?_
  exact Finset.sum_congr rfl fun k _ => congrArg X (funext fun d => Fin.ext (by
    match d with | ⟨0, _⟩ => rfl | ⟨1, _⟩ => rfl | ⟨2, _⟩ => rfl | ⟨3, _⟩ => rfl | ⟨4, _⟩ => rfl))

/-- The lane sum over the arcs. -/
theorem sumOverArcs (X : FVec Ideal S16x5x6x20 .f32) (n : Fin 16) (l : Fin 5) (c : Fin 20) :
    multiReduction (F := Ideal) .add [2] S16x5x20 X 0x00000000#32 reduces_S16x5x6x20_S16x5x20 (.inl rfl) rfl (ix3 n l c)
      = ∑ a : Fin 6, X (ix4 n l a c) := by
  refine (Ideal.multiReduction_add_single X 0x00000000#32 reduces_S16x5x6x20_S16x5x20 (.inl rfl) rfl (ix3 n l c)).trans ?_
  exact Finset.sum_congr rfl fun a _ => congrArg X (funext fun d => Fin.ext (by
    match d with | ⟨0, _⟩ => rfl | ⟨1, _⟩ => rfl | ⟨2, _⟩ => rfl | ⟨3, _⟩ => rfl))

/-- The lane sum over the layers. -/
theorem sumOverLayers (X : FVec Ideal S16x5x20 .f32) (n : Fin 16) (c : Fin 20) :
    multiReduction (F := Ideal) .add [1] S16x20 X 0x00000000#32 reduces_S16x5x20_S16x20 (.inl rfl) rfl (ix2 n c)
      = ∑ l : Fin 5, X (ix3 n l c) := by
  refine (Ideal.multiReduction_add_single X 0x00000000#32 reduces_S16x5x20_S16x20 (.inl rfl) rfl (ix2 n c)).trans ?_
  exact Finset.sum_congr rfl fun l _ => congrArg X (funext fun d => Fin.ext (by
    match d with | ⟨0, _⟩ => rfl | ⟨1, _⟩ => rfl | ⟨2, _⟩ => rfl))

/-- The arc weights, given two unit axes and broadcast over nodes and states, read at `(n, l, a, c)`: the weight of
    arc `a` on layer `l`. -/
theorem arcWeights_apply (U : Vec Ideal S5x6 .f32) (n : Fin 16) (l : Fin 5) (a : Fin 6) (c : Fin 20) :
    broadcastTo S16x5x6x20 (shapeCast S1x5x6x1 U shapeCasts_S5x6_S1x5x6x1) broadcasts_S1x5x6x1_S16x5x6x20 (ix4 n l a c)
      = U (ix2 l a) := by
  refine (broadcastTo_apply _ _ (ix4 n l a c) (ix4 (0 : Fin 1) l a (0 : Fin 1)) (fun d => by
    match d with
    | ⟨0, _⟩ => show 0 = (if (1 : Nat) = 1 then 0 else n.val); rw [if_pos rfl]
    | ⟨1, _⟩ => show l.val = (if (5 : Nat) = 1 then 0 else l.val); rw [if_neg (by decide)]
    | ⟨2, _⟩ => show a.val = (if (6 : Nat) = 1 then 0 else a.val); rw [if_neg (by decide)]
    | ⟨3, _⟩ => show 0 = (if (1 : Nat) = 1 then 0 else c.val); rw [if_pos rfl])).trans ?_
  exact shapeCast_apply _ _ (ix4 (0 : Fin 1) l a (0 : Fin 1)) (ix2 l a) (by
    rw [Shape.rowMajor_val_two, Shape.rowMajor_val_four]
    show l.val * 6 + a.val = ((0 * 5 + l.val) * 6 + a.val) * 1 + 0
    omega)

/-- The layer weights, given two unit axes and broadcast over nodes and states, read at `(n, l, c)`: the weight of
    layer `l`. -/
theorem layerWeights_apply (W : Vec Ideal S5 .f32) (n : Fin 16) (l : Fin 5) (c : Fin 20) :
    broadcastTo S16x5x20 (shapeCast S1x5x1 W shapeCasts_S5_S1x5x1) broadcasts_S1x5x1_S16x5x20 (ix3 n l c)
      = W (ix1 l) := by
  refine (broadcastTo_apply _ _ (ix3 n l c) (ix3 (0 : Fin 1) l (0 : Fin 1)) (fun d => by
    match d with
    | ⟨0, _⟩ => show 0 = (if (1 : Nat) = 1 then 0 else n.val); rw [if_pos rfl]
    | ⟨1, _⟩ => show l.val = (if (5 : Nat) = 1 then 0 else l.val); rw [if_neg (by decide)]
    | ⟨2, _⟩ => show 0 = (if (1 : Nat) = 1 then 0 else c.val); rw [if_pos rfl])).trans ?_
  exact shapeCast_apply _ _ (ix3 (0 : Fin 1) l (0 : Fin 1)) (ix1 l) (by
    rw [Shape.rowMajor_val_one, Shape.rowMajor_val_three]
    show l.val = (0 * 5 + l.val) * 1 + 0
    omega)

/-- The state-posterior block at `(n, c)` is node `n`'s state posterior at `c`: the three nested lane sums of the
    term block under the broadcast weights, innermost first. -/
theorem stateBlock_apply (S : Vec Ideal S16x5x6x20 .f32) (T : Vec Ideal S5x6x20x20 .f32) (W : Vec Ideal S5 .f32)
    (U : Vec Ideal S5x6 .f32) (n : Fin 16) (c : Fin 20) :
    k0_pay3 (F := Ideal) S T W U (ix2 n c) = statePosterior S W U T n c := by
  unfold k0_pay3 statePosterior
  dsimp only
  refine (sumOverLayers _ n c).trans (Finset.sum_congr rfl fun l _ => ?_)
  refine congrArg₂ (· * ·) (layerWeights_apply W n l c) ?_
  refine (sumOverArcs _ n l c).trans (Finset.sum_congr rfl fun a _ => ?_)
  refine congrArg₂ (· * ·) (arcWeights_apply U n l a c) ?_
  refine (sumOverNeighbour _ n l a c).trans (Finset.sum_congr rfl fun k _ => ?_)
  exact termPayload_apply S T n l a c k

/-! ## The three blocks whole -/

theorem zeros2 : (![0, 0] : Fin 2 → Nat) = fun _ => 0 := funext fun d => by fin_cases d <;> rfl
theorem zeros1 : (![0] : Fin 1 → Nat) = fun _ => 0 := funext fun d => by fin_cases d <;> rfl
theorem zeros4 : (![0, 0, 0, 0] : Fin 4 → Nat) = fun _ => 0 := funext fun d => by fin_cases d <;> rfl

/-- The term block the body leaves is the array of terms of the block's 16 nodes. -/
theorem termBlock_eq (S : Vec Ideal S16x5x6x20 .f32) (W : Vec Ideal S5 .f32) (U : Vec Ideal S5x6 .f32)
    (T : Vec Ideal S5x6x20x20 .f32) : out0_6 (F := Ideal) S W U T = termArray S T := by
  unfold out0_6
  funext y
  refine (Value.canon6_eq (F := Ideal) _ _ y).trans ?_
  rw [View.ld_unit_zero (S := S16x5x6x20) zeros4, View.ld_unit_zero (S := S5x6x20x20) zeros4]
  exact (congrArg (Value.E6 (F := Ideal) T S) (eq_ix5 y)).trans (termBlock_apply T S (y 0) (y 1) (y 2) (y 3) (y 4))

/-- The pair-posterior block the body leaves is the array of pair posteriors of the block's 16 nodes. -/
theorem postBlock_eq (S : Vec Ideal S16x5x6x20 .f32) (W : Vec Ideal S5 .f32) (U : Vec Ideal S5x6 .f32)
    (T : Vec Ideal S5x6x20x20 .f32) : out0_5 (F := Ideal) S W U T = postArray S W U T := by
  unfold out0_5
  funext y
  refine (Value.canon5_eq (F := Ideal) _ _ _ _ y).trans ?_
  rw [View.ld_unit_zero (S := S16x5x6x20) zeros4, View.ld_unit_zero (S := S5x6x20x20) zeros4,
    View.ld_unit_zero (S := S5) zeros1, View.ld_unit_zero (S := S5x6) zeros2]
  exact (congrArg (Value.E5 (F := Ideal) W U T S) (eq_ix5 y)).trans (postBlock_apply W U T S (y 0) (y 1) (y 2) (y 3) (y 4))

/-- The state-posterior block the body leaves is the array of state posteriors of the block's 16 nodes. -/
theorem stateBlock_eq (S : Vec Ideal S16x5x6x20 .f32) (W : Vec Ideal S5 .f32) (U : Vec Ideal S5x6 .f32)
    (T : Vec Ideal S5x6x20x20 .f32) : out0_4 (F := Ideal) S W U T = stateArray S W U T := by
  unfold out0_4
  rw [View.canon_unit_zero zeros2]
  rw [View.ld_unit_zero (S := S16x5x6x20) zeros4, View.ld_unit_zero (S := S5x6x20x20) zeros4,
    View.ld_unit_zero (S := S5) zeros1, View.ld_unit_zero (S := S5x6) zeros2]
  funext y
  exact (congrArg (k0_pay3 (F := Ideal) S T W U) (eq_ix2 y)).trans (stateBlock_apply S T W U (y 0) (y 1))

end Cert.KernelIdeal.Block

end
-- ==== Proof.KernelArrays.lean ====
/-
  The kernel's three result arrays are the three arrays of the specification.

  The grid has 625 points; point `t` works on nodes `16 t … 16 t + 15`. Its block of statistics is those 16 rows of
  the statistics array, and its blocks of layer weights, arc weights and transition weights are those arrays whole.
  What it writes back to each result array is the block of 16 rows the body leaves, and a node's term, pair
  posterior and state posterior read that node's statistics alone: so the rows written at point `t` are rows
  `16 t … 16 t + 15` of the specification's array over ALL the statistics. Row `r` lies in the block of point
  `r / 16`, so the 625 blocks cover each result array, which therefore ends holding the specification's array.
-/
import proofs.«157657_j89172111000085_1_alg».proof.Proof.Gen.KernelIdeal.Value
import proofs.«157657_j89172111000085_1_alg».proof.Proof.BlockValues
import Idealize.ShloMosaic.Lib.Pipeline.Value
import Idealize.ShloMosaic.Lib.ValueIdx

noncomputable section

namespace Cert.KernelIdeal.Arrays

open Cert.KernelIdeal Cert.KernelIdeal.Gen Idealize.ShloMosaic Idealize.ShloMosaic.TcCoe Idealize.SL.Sem
open Idealize.ShloMosaic.ValueIdx Cert.Posterior
open Idealize.ShloMosaic.Pipeline (Dat)

variable (m : (ℓ : Loc nD τ sig) → Buf (Elt Ideal) ℓ) (ρ : Dev nD → PrngReg)

/-! ## The argument arrays, and a point's blocks of them -/

abbrev statsArr (c : Dev nD) : (⟨4, ![10000, 5, 6, 20]⟩ : Shape).Idx → EReal := V m c main_arg0
abbrev layerArr (c : Dev nD) : (⟨1, ![5]⟩ : Shape).Idx → EReal := V m c main_arg1
abbrev arcArr (c : Dev nD) : (⟨2, ![5, 6]⟩ : Shape).Idx → EReal := V m c main_arg2
abbrev transArr (c : Dev nD) : (⟨4, ![5, 6, 20, 20]⟩ : Shape).Idx → EReal := V m c main_arg3

abbrev statsBlk (c : Dev nD) (t : Fin cfg0.N) : Vec Ideal S16x5x6x20 .f32 := iblk m c 0 t
abbrev layerBlk (c : Dev nD) (t : Fin cfg0.N) : Vec Ideal S5 .f32 := iblk m c 1 t
abbrev arcBlk (c : Dev nD) (t : Fin cfg0.N) : Vec Ideal S5x6 .f32 := iblk m c 2 t
abbrev transBlk (c : Dev nD) (t : Fin cfg0.N) : Vec Ideal S5x6x20x20 .f32 := iblk m c 3 t

/-! ## The index maps over the grid: the node axis moves with the point, every other axis stays -/

theorem statsIdx : ∀ t : Fin cfg0.N, win0_0.index t (0 : Fin 4) = t.val ∧ win0_0.index t (1 : Fin 4) = 0
    ∧ win0_0.index t (2 : Fin 4) = 0 ∧ win0_0.index t (3 : Fin 4) = 0 :=
  (by decide +kernel : ∀ t : Fin grid0.N, _)

theorem layerIdx : ∀ t : Fin cfg0.N, win0_1.index t (0 : Fin 1) = 0 :=
  (by decide +kernel : ∀ t : Fin grid0.N, _)

theorem arcIdx : ∀ t : Fin cfg0.N, win0_2.index t (0 : Fin 2) = 0 ∧ win0_2.index t (1 : Fin 2) = 0 :=
  (by decide +kernel : ∀ t : Fin grid0.N, _)

theorem transIdx : ∀ t : Fin cfg0.N, win0_3.index t (0 : Fin 4) = 0 ∧ win0_3.index t (1 : Fin 4) = 0
    ∧ win0_3.index t (2 : Fin 4) = 0 ∧ win0_3.index t (3 : Fin 4) = 0 :=
  (by decide +kernel : ∀ t : Fin grid0.N, _)

theorem stateIdx : ∀ t : Fin cfg0.N, win0_4.index t (0 : Fin 2) = t.val ∧ win0_4.index t (1 : Fin 2) = 0 :=
  (by decide +kernel : ∀ t : Fin grid0.N, _)

theorem postIdx : ∀ t : Fin cfg0.N, win0_5.index t (0 : Fin 5) = t.val ∧ win0_5.index t (1 : Fin 5) = 0
    ∧ win0_5.index t (2 : Fin 5) = 0 ∧ win0_5.index t (3 : Fin 5) = 0 ∧ win0_5.index t (4 : Fin 5) = 0 :=
  (by decide +kernel : ∀ t : Fin grid0.N, _)

theorem termIdx : ∀ t : Fin cfg0.N, win0_6.index t (0 : Fin 5) = t.val ∧ win0_6.index t (1 : Fin 5) = 0
    ∧ win0_6.index t (2 : Fin 5) = 0 ∧ win0_6.index t (3 : Fin 5) = 0 ∧ win0_6.index t (4 : Fin 5) = 0 :=
  (by decide +kernel : ∀ t : Fin grid0.N, _)

/-- The array row under row `n` of point `t`'s block. -/
abbrev rowOf (t : Fin cfg0.N) (n : Fin 16) : Fin 10000 :=
  ⟨16 * t.val + n.val, by have ht : t.val < 625 := t.isLt; have hn := n.isLt; omega⟩

/-! ## The input blocks -/

/-- Row `n` of point `t`'s block of statistics is row `16 t + n` of the array. -/
theorem statsBlk_apply (c : Dev nD) (t : Fin cfg0.N) (n : Fin 16) (l : Fin 5) (a : Fin 6) (k : Fin 20) :
    statsBlk m c t (ix4 n l a k) = statsArr m c (ix4 (rowOf t n) l a k) := by
  show V m c main_arg0 (((cfg0.win 0).blk t).view.emb (ix4 n l a k)) = V m c main_arg0 (ix4 (rowOf t n) l a k)
  refine congrArg _ (funext fun d => Fin.ext ?_)
  obtain ⟨e0, e1, e2, e3⟩ := statsIdx t
  match d with
  | ⟨0, _⟩ => show win0_0.index t (0 : Fin 4) * 16 + 1 * n.val = 16 * t.val + n.val; omega
  | ⟨1, _⟩ => show win0_0.index t (1 : Fin 4) * 5 + 1 * l.val = l.val; omega
  | ⟨2, _⟩ => show win0_0.index t (2 : Fin 4) * 6 + 1 * a.val = a.val; omega
  | ⟨3, _⟩ => show win0_0.index t (3 : Fin 4) * 20 + 1 * k.val = k.val; omega

/-- Every point's block of layer weights is the whole array. -/
theorem layerBlk_eq (c : Dev nD) (t : Fin cfg0.N) : layerBlk m c t = layerArr m c := by
  funext i
  show V m c main_arg1 (((cfg0.win 1).blk t).view.emb i) = V m c main_arg1 i
  refine congrArg _ (funext fun d => Fin.ext ?_)
  have e0 := layerIdx t
  match d with
  | ⟨0, _⟩ => show win0_1.index t (0 : Fin 1) * 5 + 1 * (i 0).val = (i 0).val; omega

/-- Every point's block of arc weights is the whole array. -/
theorem arcBlk_eq (c : Dev nD) (t : Fin cfg0.N) : arcBlk m c t = arcArr m c := by
  funext i
  show V m c main_arg2 (((cfg0.win 2).blk t).view.emb i) = V m c main_arg2 i
  refine congrArg _ (funext fun d => Fin.ext ?_)
  obtain ⟨e0, e1⟩ := arcIdx t
  match d with
  | ⟨0, _⟩ => show win0_2.index t (0 : Fin 2) * 5 + 1 * (i 0).val = (i 0).val; omega
  | ⟨1, _⟩ => show win0_2.index t (1 : Fin 2) * 6 + 1 * (i 1).val = (i 1).val; omega

/-- Every point's block of transition weights is the whole array. -/
theorem transBlk_eq (c : Dev nD) (t : Fin cfg0.N) : transBlk m c t = transArr m c := by
  funext i
  show V m c main_arg3 (((cfg0.win 3).blk t).view.emb i) = V m c main_arg3 i
  refine congrArg _ (funext fun d => Fin.ext ?_)
  obtain ⟨e0, e1, e2, e3⟩ := transIdx t
  match d with
  | ⟨0, _⟩ => show win0_3.index t (0 : Fin 4) * 5 + 1 * (i 0).val = (i 0).val; omega
  | ⟨1, _⟩ => show win0_3.index t (1 : Fin 4) * 6 + 1 * (i 1).val = (i 1).val; omega
  | ⟨2, _⟩ => show win0_3.index t (2 : Fin 4) * 20 + 1 * (i 2).val = (i 2).val; omega
  | ⟨3, _⟩ => show win0_3.index t (3 : Fin 4) * 20 + 1 * (i 3).val = (i 3).val; omega

/-! ## Where an index of an output block lies in its array -/

theorem stateEmb (t : Fin cfg0.N) (n : Fin 16) (cc : Fin 20) :
    ((cfg0.win 4).blk t).view.emb (ix2 n cc) = ix2 (rowOf t n) cc := by
  refine funext fun d => Fin.ext ?_
  obtain ⟨e0, e1⟩ := stateIdx t
  match d with
  | ⟨0, _⟩ => show win0_4.index t (0 : Fin 2) * 16 + 1 * n.val = 16 * t.val + n.val; omega
  | ⟨1, _⟩ => show win0_4.index t (1 : Fin 2) * 20 + 1 * cc.val = cc.val; omega

theorem postEmb (t : Fin cfg0.N) (n : Fin 16) (l : Fin 5) (a : Fin 6) (cc k : Fin 20) :
    ((cfg0.win 5).blk t).view.emb (ix5 n l a cc k) = ix5 (rowOf t n) l a cc k := by
  refine funext fun d => Fin.ext ?_
  obtain ⟨e0, e1, e2, e3, e4⟩ := postIdx t
  match d with
  | ⟨0, _⟩ => show win0_5.index t (0 : Fin 5) * 16 + 1 * n.val = 16 * t.val + n.val; omega
  | ⟨1, _⟩ => show win0_5.index t (1 : Fin 5) * 5 + 1 * l.val = l.val; omega
  | ⟨2, _⟩ => show win0_5.index t (2 : Fin 5) * 6 + 1 * a.val = a.val; omega
  | ⟨3, _⟩ => show win0_5.index t (3 : Fin 5) * 20 + 1 * cc.val = cc.val; omega
  | ⟨4, _⟩ => show win0_5.index t (4 : Fin 5) * 20 + 1 * k.val = k.val; omega

theorem termEmb (t : Fin cfg0.N) (n : Fin 16) (l : Fin 5) (a : Fin 6) (cc k : Fin 20) :
    ((cfg0.win 6).blk t).view.emb (ix5 n l a cc k) = ix5 (rowOf t n) l a cc k := by
  refine funext fun d => Fin.ext ?_
  obtain ⟨e0, e1, e2, e3, e4⟩ := termIdx t
  match d with
  | ⟨0, _⟩ => show win0_6.index t (0 : Fin 5) * 16 + 1 * n.val = 16 * t.val + n.val; omega
  | ⟨1, _⟩ => show win0_6.index t (1 : Fin 5) * 5 + 1 * l.val = l.val; omega
  | ⟨2, _⟩ => show win0_6.index t (2 : Fin 5) * 6 + 1 * a.val = a.val; omega
  | ⟨3, _⟩ => show win0_6.index t (3 : Fin 5) * 20 + 1 * cc.val = cc.val; omega
  | ⟨4, _⟩ => show win0_6.index t (4 : Fin 5) * 20 + 1 * k.val = k.val; omega

/-! ## What a point writes back is its block of the specification's array -/

theorem termsFlushed (c : Dev nD) (t : Fin cfg0.N) :
    (dats m 0 c).flushed 6 t
      = ((cfg0.win 6).blk t).view.read (Elt Ideal) (termArray (statsArr m c) (transArr m c)) := by
  rw [Value.flushed6]
  funext y
  obtain ⟨n, l, a, cc, k, rfl⟩ : ∃ (n : Fin 16) (l : Fin 5) (a : Fin 6) (cc k : Fin 20), y = ix5 n l a cc k :=
    ⟨y 0, y 1, y 2, y 3, y 4, eq_ix5 y⟩
  show out0_6 (statsBlk m c t) (layerBlk m c t) (arcBlk m c t) (transBlk m c t) (ix5 n l a cc k)
    = termArray (statsArr m c) (transArr m c) (((cfg0.win 6).blk t).view.emb (ix5 n l a cc k))
  rw [Block.termBlock_eq, termEmb, transBlk_eq]
  exact term_rows (statsArr m c) (statsBlk m c t) (transArr m c) (rowOf t n) n
    (fun l a k => statsBlk_apply m c t n l a k) l a cc k

theorem postsFlushed (c : Dev nD) (t : Fin cfg0.N) :
    (dats m 0 c).flushed 5 t
      = ((cfg0.win 5).blk t).view.read (Elt Ideal)
          (postArray (statsArr m c) (layerArr m c) (arcArr m c) (transArr m c)) := by
  rw [Value.flushed5]
  funext y
  obtain ⟨n, l, a, cc, k, rfl⟩ : ∃ (n : Fin 16) (l : Fin 5) (a : Fin 6) (cc k : Fin 20), y = ix5 n l a cc k :=
    ⟨y 0, y 1, y 2, y 3, y 4, eq_ix5 y⟩
  show out0_5 (statsBlk m c t) (layerBlk m c t) (arcBlk m c t) (transBlk m c t) (ix5 n l a cc k)
    = postArray (statsArr m c) (layerArr m c) (arcArr m c) (transArr m c)
        (((cfg0.win 5).blk t).view.emb (ix5 n l a cc k))
  rw [Block.postBlock_eq, postEmb, layerBlk_eq, arcBlk_eq, transBlk_eq]
  exact post_rows (statsArr m c) (statsBlk m c t) (layerArr m c) (arcArr m c) (transArr m c) (rowOf t n) n
    (fun l a k => statsBlk_apply m c t n l a k) l a cc k

theorem statesFlushed (c : Dev nD) (t : Fin cfg0.N) :
    (dats m 0 c).flushed 4 t
      = ((cfg0.win 4).blk t).view.read (Elt Ideal)
          (stateArray (statsArr m c) (layerArr m c) (arcArr m c) (transArr m c)) := by
  rw [Value.flushed4]
  funext y
  obtain ⟨n, cc, rfl⟩ : ∃ (n : Fin 16) (cc : Fin 20), y = ix2 n cc := ⟨y 0, y 1, eq_ix2 y⟩
  show out0_4 (statsBlk m c t) (layerBlk m c t) (arcBlk m c t) (transBlk m c t) (ix2 n cc)
    = stateArray (statsArr m c) (layerArr m c) (arcArr m c) (transArr m c)
        (((cfg0.win 4).blk t).view.emb (ix2 n cc))
  rw [Block.stateBlock_eq, stateEmb, layerBlk_eq, arcBlk_eq, transBlk_eq]
  exact statePosterior_rows (statsArr m c) (statsBlk m c t) (layerArr m c) (arcArr m c) (transArr m c)
    (rowOf t n) n (fun l a k => statsBlk_apply m c t n l a k) cc

/-! ## The blocks cover each result array: row `r` lies in the block of point `r / 16` -/

theorem mem_stateBlk (t : Fin cfg0.N) (i : S10000x20.Idx) :
    i ∈ ((cfg0.win 4).blk t).view.set ↔ ∀ a : Fin 2, win0_4.index t a * S16x20.size a ≤ (i a).val
      ∧ (i a).val < win0_4.index t a * S16x20.size a + S16x20.size a := by
  show i ∈ ((View.whole main_v0_0).slice (win0_4.rect t)).set ↔ _
  rw [View.set_slice_whole, Rect.mem_set_unit]
  exact Iff.rfl

theorem mem_postBlk (t : Fin cfg0.N) (i : S10000x5x6x20x20.Idx) :
    i ∈ ((cfg0.win 5).blk t).view.set ↔ ∀ a : Fin 5, win0_5.index t a * S16x5x6x20x20.size a ≤ (i a).val
      ∧ (i a).val < win0_5.index t a * S16x5x6x20x20.size a + S16x5x6x20x20.size a := by
  show i ∈ ((View.whole main_v0_1).slice (win0_5.rect t)).set ↔ _
  rw [View.set_slice_whole, Rect.mem_set_unit]
  exact Iff.rfl

theorem mem_termBlk (t : Fin cfg0.N) (i : S10000x5x6x20x20.Idx) :
    i ∈ ((cfg0.win 6).blk t).view.set ↔ ∀ a : Fin 5, win0_6.index t a * S16x5x6x20x20.size a ≤ (i a).val
      ∧ (i a).val < win0_6.index t a * S16x5x6x20x20.size a + S16x5x6x20x20.size a := by
  show i ∈ ((View.whole main_v0_2).slice (win0_6.rect t)).set ↔ _
  rw [View.set_slice_whole, Rect.mem_set_unit]
  exact Iff.rfl

/-- The point whose block holds row `r`. -/
abbrev pointOf (r : Nat) (hr : r < 10000) : Fin cfg0.N := ⟨r / 16, by show r / 16 < 625; omega⟩

theorem stateCover (i : S10000x20.Idx) :
    ∃ t : Fin cfg0.N, (cfg0.win 4).flush t = true ∧ i ∈ ((cfg0.win 4).blk t).view.set := by
  have h0 : (i 0).val < 10000 := (i 0).isLt
  have h1 : (i 1).val < 20 := (i 1).isLt
  refine ⟨pointOf (i 0).val h0, flush0_4 _, ?_⟩
  rw [mem_stateBlk]
  obtain ⟨e0, e1⟩ := stateIdx (pointOf (i 0).val h0)
  have e0' : win0_4.index (pointOf (i 0).val h0) (0 : Fin 2) = (i 0).val / 16 := e0
  intro a
  match a with
  | ⟨0, _⟩ =>
    show win0_4.index (pointOf (i 0).val h0) (0 : Fin 2) * 16 ≤ (i 0).val
      ∧ (i 0).val < win0_4.index (pointOf (i 0).val h0) (0 : Fin 2) * 16 + 16
    omega
  | ⟨1, _⟩ =>
    show win0_4.index (pointOf (i 0).val h0) (1 : Fin 2) * 20 ≤ (i 1).val
      ∧ (i 1).val < win0_4.index (pointOf (i 0).val h0) (1 : Fin 2) * 20 + 20
    omega

theorem postCover (i : S10000x5x6x20x20.Idx) :
    ∃ t : Fin cfg0.N, (cfg0.win 5).flush t = true ∧ i ∈ ((cfg0.win 5).blk t).view.set := by
  have h0 : (i 0).val < 10000 := (i 0).isLt
  have h1 : (i 1).val < 5 := (i 1).isLt
  have h2 : (i 2).val < 6 := (i 2).isLt
  have h3 : (i 3).val < 20 := (i 3).isLt
  have h4 : (i 4).val < 20 := (i 4).isLt
  refine ⟨pointOf (i 0).val h0, flush0_5 _, ?_⟩
  rw [mem_postBlk]
  obtain ⟨e0, e1, e2, e3, e4⟩ := postIdx (pointOf (i 0).val h0)
  have e0' : win0_5.index (pointOf (i 0).val h0) (0 : Fin 5) = (i 0).val / 16 := e0
  intro a
  match a with
  | ⟨0, _⟩ =>
    show win0_5.index (pointOf (i 0).val h0) (0 : Fin 5) * 16 ≤ (i 0).val
      ∧ (i 0).val < win0_5.index (pointOf (i 0).val h0) (0 : Fin 5) * 16 + 16
    omega
  | ⟨1, _⟩ =>
    show win0_5.index (pointOf (i 0).val h0) (1 : Fin 5) * 5 ≤ (i 1).val
      ∧ (i 1).val < win0_5.index (pointOf (i 0).val h0) (1 : Fin 5) * 5 + 5
    omega
  | ⟨2, _⟩ =>
    show win0_5.index (pointOf (i 0).val h0) (2 : Fin 5) * 6 ≤ (i 2).val
      ∧ (i 2).val < win0_5.index (pointOf (i 0).val h0) (2 : Fin 5) * 6 + 6
    omega
  | ⟨3, _⟩ =>
    show win0_5.index (pointOf (i 0).val h0) (3 : Fin 5) * 20 ≤ (i 3).val
      ∧ (i 3).val < win0_5.index (pointOf (i 0).val h0) (3 : Fin 5) * 20 + 20
    omega
  | ⟨4, _⟩ =>
    show win0_5.index (pointOf (i 0).val h0) (4 : Fin 5) * 20 ≤ (i 4).val
      ∧ (i 4).val < win0_5.index (pointOf (i 0).val h0) (4 : Fin 5) * 20 + 20
    omega

theorem termCover (i : S10000x5x6x20x20.Idx) :
    ∃ t : Fin cfg0.N, (cfg0.win 6).flush t = true ∧ i ∈ ((cfg0.win 6).blk t).view.set := by
  have h0 : (i 0).val < 10000 := (i 0).isLt
  have h1 : (i 1).val < 5 := (i 1).isLt
  have h2 : (i 2).val < 6 := (i 2).isLt
  have h3 : (i 3).val < 20 := (i 3).isLt
  have h4 : (i 4).val < 20 := (i 4).isLt
  refine ⟨pointOf (i 0).val h0, flush0_6 _, ?_⟩
  rw [mem_termBlk]
  obtain ⟨e0, e1, e2, e3, e4⟩ := termIdx (pointOf (i 0).val h0)
  have e0' : win0_6.index (pointOf (i 0).val h0) (0 : Fin 5) = (i 0).val / 16 := e0
  intro a
  match a with
  | ⟨0, _⟩ =>
    show win0_6.index (pointOf (i 0).val h0) (0 : Fin 5) * 16 ≤ (i 0).val
      ∧ (i 0).val < win0_6.index (pointOf (i 0).val h0) (0 : Fin 5) * 16 + 16
    omega
  | ⟨1, _⟩ =>
    show win0_6.index (pointOf (i 0).val h0) (1 : Fin 5) * 5 ≤ (i 1).val
      ∧ (i 1).val < win0_6.index (pointOf (i 0).val h0) (1 : Fin 5) * 5 + 5
    omega
  | ⟨2, _⟩ =>
    show win0_6.index (pointOf (i 0).val h0) (2 : Fin 5) * 6 ≤ (i 2).val
      ∧ (i 2).val < win0_6.index (pointOf (i 0).val h0) (2 : Fin 5) * 6 + 6
    omega
  | ⟨3, _⟩ =>
    show win0_6.index (pointOf (i 0).val h0) (3 : Fin 5) * 20 ≤ (i 3).val
      ∧ (i 3).val < win0_6.index (pointOf (i 0).val h0) (3 : Fin 5) * 20 + 20
    omega
  | ⟨4, _⟩ =>
    show win0_6.index (pointOf (i 0).val h0) (4 : Fin 5) * 20 ≤ (i 4).val
      ∧ (i 4).val < win0_6.index (pointOf (i 0).val h0) (4 : Fin 5) * 20 + 20
    omega

/-! ## The result arrays after the run -/

theorem statesFinal (c : Dev nD) :
    (dats m 0 c).arrAt 4 cfg0.N = stateArray (statsArr m c) (layerArr m c) (arcArr m c) (transArr m c) :=
  (dats m 0 c).arrAt_eq_of_cover 4 _ (fun t _ => statesFlushed m c t) stateCover

theorem postsFinal (c : Dev nD) :
    (dats m 0 c).arrAt 5 cfg0.N = postArray (statsArr m c) (layerArr m c) (arcArr m c) (transArr m c) :=
  (dats m 0 c).arrAt_eq_of_cover 5 _ (fun t _ => postsFlushed m c t) postCover

theorem termsFinal (c : Dev nD) :
    (dats m 0 c).arrAt 6 cfg0.N = termArray (statsArr m c) (transArr m c) :=
  (dats m 0 c).arrAt_eq_of_cover 6 _ (fun t _ => termsFlushed m c t) termCover

/-- The kernel's run: it terminates without fault, its three result arrays hold the specification's arrays of the
    argument arrays, and the arguments are unchanged. -/
theorem run : θ_run defs (onTc (τ := τ) (main (F := Ideal))) ⟨m, fun _ => 0, ρ⟩ fun r => ∀ c : Dev nD,
      r.2.mem ((c : Thread nD τ).loc main_v0_0)
        = stateArray (statsArr m c) (layerArr m c) (arcArr m c) (transArr m c)
      ∧ r.2.mem ((c : Thread nD τ).loc main_v0_1)
        = postArray (statsArr m c) (layerArr m c) (arcArr m c) (transArr m c)
      ∧ r.2.mem ((c : Thread nD τ).loc main_v0_2) = termArray (statsArr m c) (transArr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (statesFinal m c), (h c).2.1.trans (postsFinal m c),
      (h c).2.2.1.trans (termsFinal m c), (h c).2.2.2⟩)
    (Value.run_blocks m ρ)

end Cert.KernelIdeal.Arrays

end
-- ==== Proof.ReferenceValues.lean ====
/-
  The reference's three results are the three arrays of the specification.

  The reference is read one operation at a time, at an index with literal coordinates: the sum of the statistics
  over the neighbour state is the node's mass (its initial value is the zero word, which denotes zero); the
  comparison with the zero word and the selection of the one word is the guard on the mass; the broadcast product
  of transition weight and statistic over the guarded mass is the term; and the three sums with the broadcast arc
  and layer weights are the state posterior. Every broadcast only renames coordinates.
-/
import proofs.«157657_j89172111000085_1_alg».proof.Proof.Gen.ReferenceIdeal.Read
import proofs.«157657_j89172111000085_1_alg».proof.Proof.Posterior
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx
open Cert.Posterior

variable (x0 : (⟨S10000x5x6x20, .f32⟩ : BufTy).Contents (Elt Ideal)) (x1 : (⟨S5, .f32⟩ : BufTy).Contents (Elt Ideal))
  (x2 : (⟨S5x6, .f32⟩ : BufTy).Contents (Elt Ideal)) (x3 : (⟨S5x6x20x20, .f32⟩ : BufTy).Contents (Elt Ideal))

/-- The reference's first sum at `(n, l, a)` is the node's mass. -/
theorem mass_at (n : Fin 10000) (l : Fin 5) (a : Fin 6) (j : S10000x5x6.Idx) (hj : j = ix3 n l a) :
    val_main_v0 (F := Ideal) x0 j = mass x0 n l a := by
  subst hj
  rw [val_main_v0_apply]
  show Ideal.ofBits .f32 0x00000000#32 + _ = _
  rw [Ideal.ofBits_zero_f32, zero_add]
  exact Finset.sum_congr rfl fun k _ => congrArg x0 (funext fun d => Fin.ext (by
    match d with | ⟨0, _⟩ => rfl | ⟨1, _⟩ => rfl | ⟨2, _⟩ => rfl | ⟨3, _⟩ => rfl))

/-- The reference's selected denominator at `(n, l, a, 0, 0)` is the guarded mass. -/
theorem guarded_at (n : Fin 10000) (l : Fin 5) (a : Fin 6) (j : S10000x5x6x1x1.Idx)
    (hj : j = ix5 n l a (0 : Fin 1) (0 : Fin 1)) :
    val_main_v5 (F := Ideal) x0 j = orOne (mass x0 n l a) := by
  subst hj
  have e : idx_main_v1 (idx_main_v2 (ix5 n l a (0 : Fin 1) (0 : Fin 1))) = ix3 n l a := funext fun d => Fin.ext (by
    match d with | ⟨0, _⟩ => rfl | ⟨1, _⟩ => rfl | ⟨2, _⟩ => rfl)
  rw [val_main_v5_apply, val_main_v4_apply, val_main_v2_apply, val_main_v1_apply, mass_at x0 n l a _ e]
  rfl

/-- The reference's quotient at `(n, l, a, c, k)` is the term. -/
theorem term_at (n : Fin 10000) (l : Fin 5) (a : Fin 6) (c k : Fin 20) (j : S10000x5x6x20x20.Idx)
    (hj : j = ix5 n l a c k) :
    val_main_v12 (F := Ideal) x0 x3 j = term x0 x3 n l a c k := by
  subst hj
  have e3 : idx_main_v6 (idx_main_v8 (ix5 n l a c k)) = ix4 l a c k := funext fun d => Fin.ext (by
    match d with | ⟨0, _⟩ => rfl | ⟨1, _⟩ => rfl | ⟨2, _⟩ => rfl | ⟨3, _⟩ => rfl)
  have e0 : idx_main_v7 (idx_main_v9 (ix5 n l a c k)) = ix4 n l a k := funext fun d => Fin.ext (by
    match d with | ⟨0, _⟩ => rfl | ⟨1, _⟩ => rfl | ⟨2, _⟩ => rfl | ⟨3, _⟩ => rfl)
  have e5 : idx_main_v11 (ix5 n l a c k) = ix5 n l a (0 : Fin 1) (0 : Fin 1) := funext fun d => Fin.ext (by
    match d with | ⟨0, _⟩ => rfl | ⟨1, _⟩ => rfl | ⟨2, _⟩ => rfl | ⟨3, _⟩ => rfl | ⟨4, _⟩ => rfl)
  rw [val_main_v12_apply, val_main_v10_apply, val_main_v8_apply, val_main_v6_apply, val_main_v9_apply,
    val_main_v7_apply, val_main_v11_apply, guarded_at x0 n l a _ e5, e3, e0]
  rfl

/-- The terms summed over the neighbour state. -/
theorem neighbourSum_at (n : Fin 10000) (l : Fin 5) (a : Fin 6) (c : Fin 20) (j : S10000x5x6x20.Idx)
    (hj : j = ix4 n l a c) :
    val_main_v14 (F := Ideal) x0 x3 j = ∑ k : Fin 20, term x0 x3 n l a c k := by
  subst hj
  rw [val_main_v14_apply]
  show Ideal.ofBits .f32 0x00000000#32 + _ = _
  rw [Ideal.ofBits_zero_f32, zero_add]
  exact Finset.sum_congr rfl fun k _ => term_at x0 x3 n l a c k _ (funext fun d => Fin.ext (by
    match d with | ⟨0, _⟩ => rfl | ⟨1, _⟩ => rfl | ⟨2, _⟩ => rfl | ⟨3, _⟩ => rfl | ⟨4, _⟩ => rfl))

/-- Those sums weighted by the arcs and summed over the arcs. -/
theorem arcSum_at (n : Fin 10000) (l : Fin 5) (c : Fin 20) (j : S10000x5x20.Idx) (hj : j = ix3 n l c) :
    val_main_v17 (F := Ideal) x0 x2 x3 j = ∑ a : Fin 6, x2 (ix2 l a) * ∑ k : Fin 20, term x0 x3 n l a c k := by
  subst hj
  rw [val_main_v17_apply]
  show Ideal.ofBits .f32 0x00000000#32 + _ = _
  rw [Ideal.ofBits_zero_f32, zero_add]
  refine Finset.sum_congr rfl fun a _ => ?_
  have ej : idx_main_v17 (ix3 n l c) a = ix4 n l a c := funext fun d => Fin.ext (by
    match d with | ⟨0, _⟩ => rfl | ⟨1, _⟩ => rfl | ⟨2, _⟩ => rfl | ⟨3, _⟩ => rfl)
  have eu : idx_main_v13 (idx_main_v15 (ix4 n l a c)) = ix2 l a := funext fun d => Fin.ext (by
    match d with | ⟨0, _⟩ => rfl | ⟨1, _⟩ => rfl)
  rw [ej, val_main_v16_apply, val_main_v15_apply, val_main_v13_apply, neighbourSum_at x0 x3 n l a c _ rfl, eu]
  rfl

/-- Those weighted by the layers and summed over the layers: the state posterior. -/
theorem state_at (n : Fin 10000) (c : Fin 20) (j : S10000x20.Idx) (hj : j = ix2 n c) :
    val_main_v21 (F := Ideal) x0 x1 x2 x3 j = statePosterior x0 x1 x2 x3 n c := by
  subst hj
  rw [val_main_v21_apply]
  show Ideal.ofBits .f32 0x00000000#32 + _ = _
  rw [Ideal.ofBits_zero_f32, zero_add]
  unfold statePosterior
  refine Finset.sum_congr rfl fun l _ => ?_
  have ej : idx_main_v21 (ix2 n c) l = ix3 n l c := funext fun d => Fin.ext (by
    match d with | ⟨0, _⟩ => rfl | ⟨1, _⟩ => rfl | ⟨2, _⟩ => rfl)
  have ew : idx_main_v18 (idx_main_v19 (ix3 n l c)) = ix1 l := funext fun d => Fin.ext (by
    match d with | ⟨0, _⟩ => rfl)
  rw [ej, val_main_v20_apply, val_main_v19_apply, val_main_v18_apply, arcSum_at x0 x2 x3 n l c _ rfl, ew]
  rfl

/-- The pair posterior. -/
theorem post_at (n : Fin 10000) (l : Fin 5) (a : Fin 6) (c k : Fin 20) (j : S10000x5x6x20x20.Idx)
    (hj : j = ix5 n l a c k) :
    val_main_v27 (F := Ideal) x0 x1 x2 x3 j = post x0 x1 x2 x3 n l a c k := by
  subst hj
  have ew : idx_main_v22 (idx_main_v24 (idx_main_v26 (ix5 n l a c k))) = ix1 l := funext fun d => Fin.ext (by
    match d with | ⟨0, _⟩ => rfl)
  have eu : idx_main_v23 (idx_main_v26 (ix5 n l a c k)) = ix2 l a := funext fun d => Fin.ext (by
    match d with | ⟨0, _⟩ => rfl | ⟨1, _⟩ => rfl)
  rw [val_main_v27_apply, val_main_v26_apply, val_main_v25_apply, val_main_v24_apply, val_main_v22_apply,
    val_main_v23_apply, term_at x0 x3 n l a c k _ rfl, ew, eu]
  rfl

/-! ## The three arrays -/

theorem terms_eq : val_main_v12 (F := Ideal) x0 x3 = termArray x0 x3 :=
  funext fun i => term_at x0 x3 (i 0) (i 1) (i 2) (i 3) (i 4) i (eq_ix5 i)

theorem posts_eq : val_main_v27 (F := Ideal) x0 x1 x2 x3 = postArray x0 x1 x2 x3 :=
  funext fun i => post_at x0 x1 x2 x3 (i 0) (i 1) (i 2) (i 3) (i 4) i (eq_ix5 i)

theorem states_eq : val_main_v21 (F := Ideal) x0 x1 x2 x3 = stateArray x0 x1 x2 x3 :=
  funext fun i => state_at x0 x1 x2 x3 (i 0) (i 1) i (eq_ix2 i)

end Cert.ReferenceIdeal.RefValue

end
-- ==== Proof.lean ====
/-
  The kernel and the reference compute the same three arrays.

  For each of 10000 nodes, 5 layers and 6 arcs there is a vector of statistics over 20 neighbour states. Both programs
  form the node's mass (the sum of that vector, replaced by one where it is zero), the term "transition weight times
  statistic over the mass" for every state pair, the pair posterior "layer weight times arc weight, times the term",
  and the state posterior: the terms summed over the neighbour state, then over the arcs under the arc weights, then
  over the layers under the layer weights. They do so with the same operations in the same order and with the same two
  constants (the words of zero and of one), so over the extended reals the results agree with no law of arithmetic
  used beyond "a sum that starts at zero is the sum": nothing here needs the inputs to be finite.

  The kernel works on 16 nodes at a time over a grid of 625 points and the reference on all nodes at once; they meet in
  one specification (Proof/Posterior.lean) in which everything about a node reads that node's statistics alone.
  Proof/BlockValues.lean reads what the kernel body leaves in a block of 16 nodes, Proof/KernelArrays.lean lays the
  625 blocks into the result arrays, Proof/ReferenceValues.lean reads the reference one operation at a time. The
  idealization rewrote nothing, so the kernel's idealized text is its own text.
-/
import proofs.«157657_j89172111000085_1_alg».proof.Defs
import proofs.«157657_j89172111000085_1_alg».proof.Proof.Gen.Kernel
import proofs.«157657_j89172111000085_1_alg».proof.Proof.Gen.Kernel.Skeleton
import proofs.«157657_j89172111000085_1_alg».proof.Proof.Gen.Kernel.Launch
import proofs.«157657_j89172111000085_1_alg».proof.Proof.Gen.Kernel.Points
import proofs.«157657_j89172111000085_1_alg».proof.Proof.Gen.Kernel.Frame
import proofs.«157657_j89172111000085_1_alg».proof.Proof.Gen.KernelIdeal
import proofs.«157657_j89172111000085_1_alg».proof.Proof.Gen.KernelIdeal.Skeleton
import proofs.«157657_j89172111000085_1_alg».proof.Proof.Gen.KernelIdeal.Launch
import proofs.«157657_j89172111000085_1_alg».proof.Proof.Gen.KernelIdeal.Points
import proofs.«157657_j89172111000085_1_alg».proof.Proof.Gen.KernelIdeal.Frame
import proofs.«157657_j89172111000085_1_alg».proof.Proof.Gen.ReferenceIdeal
import proofs.«157657_j89172111000085_1_alg».proof.Proof.Gen.Pre_finite_inputs
import proofs.«157657_j89172111000085_1_alg».proof.Proof.Gen.KernelIdeal.Value
import proofs.«157657_j89172111000085_1_alg».proof.Proof.Gen.ReferenceIdeal.Run
import proofs.«157657_j89172111000085_1_alg».proof.Proof.Gen.ReferenceIdeal.Read
import proofs.«157657_j89172111000085_1_alg».proof.Proof.KernelArrays
import proofs.«157657_j89172111000085_1_alg».proof.Proof.ReferenceValues
import Idealize.ShloMosaic.Adequacy
import Idealize.ShloMosaic.Init

noncomputable section

namespace Cert.Proof

open Idealize.ShloMosaic Idealize.SL.Sem

/-- The kernel at the word level runs to its end without fault and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the results forgotten. -/
theorem frame_reference : Cert.frame_ReferenceIdeal := fun m ρ _ =>
  (θ_run Cert.ReferenceIdeal.defs _ _).mono (fun _ h c => (h c).2.2.2)
    (Cert.ReferenceIdeal.Value.run (F := Ideal) m ρ)

/-- The idealization rewrote no operation. -/
theorem preserves : Cert.preserves_Kernel_KernelIdeal := trivial

/-- From memories that agree on the four arguments, both programs end with the state posteriors, the pair
    posteriors and the terms of the specification, computed from the same arrays. -/
theorem algebraic : Cert.algebraic_KernelIdeal_ReferenceIdeal := by
  intro m ρ m' ρ' _ hagree
  refine ⟨_, _, _, Cert.KernelIdeal.Arrays.run m ρ, ?_⟩
  refine (θ_run Cert.ReferenceIdeal.defs _ _).mono (fun _ h c => ?_)
    (Cert.ReferenceIdeal.Value.run (F := Ideal) m' ρ')
  obtain ⟨hstate, hpost, hterm, hkept⟩ := h c
  obtain ⟨a0, a1, a2, a3⟩ := hagree c
  refine ⟨hstate.trans ?_, hpost.trans ?_, hterm.trans ?_, hkept⟩
  · exact (Cert.ReferenceIdeal.Read.val_main_v21_eq _ _ _ _).trans
      ((Cert.ReferenceIdeal.RefValue.states_eq _ _ _ _).trans (by rw [a0, a1, a2, a3]))
  · exact (Cert.ReferenceIdeal.Read.val_main_v27_eq _ _ _ _).trans
      ((Cert.ReferenceIdeal.RefValue.posts_eq _ _ _ _).trans (by rw [a0, a1, a2, a3]))
  · exact (Cert.ReferenceIdeal.Read.val_main_v12_eq _ _).trans
      ((Cert.ReferenceIdeal.RefValue.terms_eq _ _).trans (by rw [a0, a3]))

theorem claim : Cert.Claim := ⟨Cert.Kernel.Gen.facts, Cert.KernelIdeal.Gen.facts, Cert.ReferenceIdeal.Gen.facts,
  Cert.Pre_finite_inputs.Gen.facts, frame_kernel, frame_kernelIdeal, frame_reference, preserves, algebraic⟩

end Cert.Proof

end
